-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S16x40 .f32) (main_arg7 : FVec F S16x40 .f32) (main_arg8 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg6
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S16x40 .f32 := Host.absf main_arg7
  let main_cst_8 : FVec F S_ .f32 := constant S_ .f32 0x7F800000#32
  let main_v25 : FVec F S16x40 .f32 := broadcastInDim S16x40 ![] bcast_S_S16x40 main_cst_8
  let main_v26 : IVec S16x40 1 := cmpf .olt main_v24 main_v25
  let main_c_9 : IVec S_ 1 := constantI S_ 1 1#1
  let main_v27 : IVec S_ 1 := (fun x v => Host.reduce IntOp.andi x v reducesTo_S16x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x16 .f32) (main_arg4 : FVec F S128x16 .f32) (main_arg5 : FVec F S16 .f32) (main_arg6 : FVec F S16x40 .f32) (main_arg7 : FVec F S16x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x16 : Shape := ⟨2, ![1, 16]⟩
abbrev S100000x16 : Shape := ⟨2, ![100000, 16]⟩
abbrev S2000x128 : Shape := ⟨2, ![2000, 128]⟩
abbrev S2000x16 : Shape := ⟨2, ![2000, 16]⟩
abbrev S1600000x16 : Shape := ⟨2, ![1600000, 16]⟩
abbrev S1x40 : Shape := ⟨2, ![1, 40]⟩
abbrev S100000x40 : Shape := ⟨2, ![100000, 40]⟩
abbrev S2000x40 : Shape := ⟨2, ![2000, 40]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x16, .f32⟩
  | .hbm, ⟨4, _⟩ => ⟨S128x16, .f32⟩
  | .hbm, ⟨5, _⟩ => ⟨S16, .f32⟩
  | .hbm, ⟨6, _⟩ => ⟨S16x40, .f32⟩
  | .hbm, ⟨7, _⟩ => ⟨S16x40, .f32⟩
  | .hbm, ⟨8, _⟩ => ⟨S40, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x16, .f32⟩
  | .hbm, ⟨35, _⟩ => ⟨S100000x16, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x16, .f32⟩
  | .hbm, ⟨45, _⟩ => ⟨S_, .f32⟩
  | .hbm, ⟨46, _⟩ => ⟨S100000x16, .f32⟩
  | .hbm, ⟨47, _⟩ => ⟨S1600000x1, .i32⟩
  | .hbm, ⟨48, _⟩ => ⟨S100000x16, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x16, .f32⟩
  | .hbm, ⟨60, _⟩ => ⟨S100000x16, .f32⟩
  | .hbm, ⟨61, _⟩ => ⟨S1x40, .f32⟩
  | .hbm, ⟨62, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x16, .f32⟩
  | .local _ .vmem, ⟨5, _⟩ => ⟨S128x16, .f32⟩
  | .local _ .vmem, ⟨6, _⟩ => ⟨S1x16, .f32⟩
  | .local _ .vmem, ⟨7, _⟩ => ⟨S2000x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S16x40, .f32⟩
  | .local _ .vmem, ⟨14, _⟩ => ⟨S16x40, .f32⟩
  | .local _ .vmem, ⟨15, _⟩ => ⟨S1x40, .f32⟩
  | .local _ .vmem, ⟨16, _⟩ => ⟨S2000x40, .f32⟩
  | .local _ .vmem, ⟨17, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S16_S1x16 : S16.ShapeCasts S1x16
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S40_S1x40 : S40.ShapeCasts S1x40
  shapeCasts_S2000x16_S2000x16 : S2000x16.ShapeCasts S2000x16
  inb_S16x40_S16x40_0_0 : ∀ a, (![0, 0] : Fin 2 → Nat) a + S16x40.size a ≤ S16x40.size a
  h_S16x40 : 0 < S16x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x16_S2000x16_1_0_0_1_n_n_wf : DotDims.WF S2000x128 S128x16 S2000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S2000x16_S16x40_S2000x40_1_0_0_1_n_n_wf : DotDims.WF S2000x16 S16x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S100000x16.size a
  hwx0_5 : ∀ i : grid0.Coords, EltTy.bits .f32 = 32 ∨ (Rect.block (s := S100000x16) S2000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x40.size a ≤ S16x40.size a
  hwx1_3 : ∀ i : grid1.Coords, EltTy.bits .f32 = 32 ∨ (Rect.block (s := S16x40) S16x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S100000x40.size a
  hwx1_5 : ∀ i : grid1.Coords, EltTy.bits .f32 = 32 ∨ (Rect.block (s := S100000x40) S2000x40.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩
abbrev S1600000x16 : Shape := ⟨2, ![1600000, 16]⟩
abbrev S100000x40 : Shape := ⟨2, ![100000, 40]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x16, .f32⟩
  | .hbm, ⟨4, _⟩ => ⟨S128x16, .f32⟩
  | .hbm, ⟨5, _⟩ => ⟨S16, .f32⟩
  | .hbm, ⟨6, _⟩ => ⟨S16x40, .f32⟩
  | .hbm, ⟨7, _⟩ => ⟨S16x40, .f32⟩
  | .hbm, ⟨8, _⟩ => ⟨S40, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x16, .f32⟩
  | .hbm, ⟨35, _⟩ => ⟨S100000x16, .f32⟩
  | .hbm, ⟨36, _⟩ => ⟨S100000x16, .f32⟩
  | .hbm, ⟨37, _⟩ => ⟨S1x16, .f32⟩
  | .hbm, ⟨38, _⟩ => ⟨S100000x16, .f32⟩
  | .hbm, ⟨39, _⟩ => ⟨S100000x16, .f32⟩
  | .hbm, ⟨40, _⟩ => ⟨S_, .f32⟩
  | .hbm, ⟨41, _⟩ => ⟨S100000x16, .f32⟩
  | .hbm, ⟨42, _⟩ => ⟨S100000x16, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x16, .f32⟩
  | .hbm, ⟨52, _⟩ => ⟨S_, .f32⟩
  | .hbm, ⟨53, _⟩ => ⟨S100000x16, .f32⟩
  | .hbm, ⟨54, _⟩ => ⟨S1600000x1, .i32⟩
  | .hbm, ⟨55, _⟩ => ⟨S100000x16, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x16, .f32⟩
  | .hbm, ⟨67, _⟩ => ⟨S100000x16, .f32⟩
  | .hbm, ⟨68, _⟩ => ⟨S100000x40, .f32⟩
  | .hbm, ⟨69, _⟩ => ⟨S100000x40, .f32⟩
  | .hbm, ⟨70, _⟩ => ⟨S100000x40, .f32⟩
  | .hbm, ⟨71, _⟩ => ⟨S1x40, .f32⟩
  | .hbm, ⟨72, _⟩ => ⟨S100000x40, .f32⟩
  | .hbm, ⟨73, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x40_S100000x40_1_0_0_1_n_n_wf : DotDims.WF S100000x16 S16x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf

class Facts : Prop extends Facts₀ where

variable [Facts]
-- ==== Proof.Spec.lean ====
/-
  The function both programs compute: two rounds of mean aggregation over a graph's in-neighbours, each
  followed by a dense combine.

  For node features `x`, edge endpoints `src` and `dst` (an edge carries the features of node `src` to node `dst`;
  a negative endpoint counts from the end), the mean of a node is the sum of the rows gathered along the edges
  that arrive at it, divided by the number of such edges, at least one. A layer is
  `self · W_self + mean · W_neigh + b`, the first one followed by `max(·, 0)`. The result is the second layer of the
  first layer's output.

  Every piece is written with the host operations themselves, so that the reference's composed term is this
  function by unfolding; the index-level reading that the tiled programme needs is in `Spec.Entry`.
-/
import proofs.«139449_j69097433858679_1_alg».proof.ReferenceIdeal
import proofs.«139449_j69097433858679_1_alg».proof.Proof.Gen.ReferenceIdeal

noncomputable section

namespace Cert.Spec

open Idealize.ShloMosaic Cert.ReferenceIdeal Cert.ReferenceIdeal.Gen

variable {F : FTy → Type} [FloatOps F]

/-- The edges' source nodes as a column of row indices, a negative one counted from the end. -/
def sourceRows (src : (⟨S1600000, .i32⟩ : BufTy).Contents (Elt F)) : (⟨S1600000x1, .i32⟩ : BufTy).Contents (Elt F) :=
  broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)

/-- The edges' target nodes as a column of row indices. -/
def targetRows (dst : (⟨S1600000, .i32⟩ : BufTy).Contents (Elt F)) : (⟨S1600000x1, .i32⟩ : BufTy).Contents (Elt F) :=
  broadcastInDim S1600000x1 ![0] bcast_S1600000_S1600000x1_0 dst

/-- The number of edges arriving at each node, at least one. -/
def degree (dst : (⟨S1600000, .i32⟩ : BufTy).Contents (Elt F)) : Vec F S100000 .f32 :=
  maximumf (Host.scatterAdd scatter_S100000_S1600000x1_S1600000_n_0_0_1 (broadcastInDim S100000 ![] bcast_S_S100000 (constant S_ .f32 0x00000000#32)) (targetRows dst) (broadcastInDim S1600000 ![] bcast_S_S1600000 (constant S_ .f32 0x3F800000#32))) (broadcastInDim S100000 ![] bcast_S_S100000 (constant S_ .f32 0x3F800000#32))

/-- The mean over a node's in-neighbours of 128 features. -/
def mean128 (x : Vec F S100000x128 .f32) (src dst : (⟨S1600000, .i32⟩ : BufTy).Contents (Elt F)) : Vec F S100000x128 .f32 :=
  Host.divf (Host.scatterAdd scatter_S100000x128_S1600000x1_S1600000x128_1_0_0_1 (broadcastInDim S100000x128 ![] bcast_S_S100000x128 (constant S_ .f32 0x00000000#32)) (targetRows dst) (Host.gather gather_S100000x128_S1600000x1_S1600000x128_1_0_n_n_0_1_1128 x (sourceRows src))) (broadcastInDim S100000x128 ![0, 1] bcast_S100000x1_S100000x128_0_1 (broadcastInDim S100000x1 ![0] bcast_S100000_S100000x1_0 (degree dst)))

/-- The mean over a node's in-neighbours of 16 features. -/
def mean16 (h : Vec F S100000x16 .f32) (src dst : (⟨S1600000, .i32⟩ : BufTy).Contents (Elt F)) : Vec F S100000x16 .f32 :=
  Host.divf (Host.scatterAdd scatter_S100000x16_S1600000x1_S1600000x16_1_0_0_1 (broadcastInDim S100000x16 ![] bcast_S_S100000x16 (constant S_ .f32 0x00000000#32)) (targetRows dst) (Host.gather gather_S100000x16_S1600000x1_S1600000x16_1_0_n_n_0_1_116 h (sourceRows src))) (broadcastInDim S100000x16 ![0, 1] bcast_S100000x1_S100000x16_0_1 (broadcastInDim S100000x1 ![0] bcast_S100000_S100000x1_0 (degree dst)))

/-- The first layer: `max(x · W_self + mean · W_neigh + b, 0)`. -/
def layer1 (x mean : Vec F S100000x128 .f32) (wSelf wNeigh : Vec F S128x16 .f32) (b : Vec F S16 .f32) : Vec F S100000x16 .f32 :=
  maximumf (addf (addf (Host.dotGeneral dot_S100000x128_S128x16_S100000x16_1_0_0_1_n_n none x wSelf) (Host.dotGeneral dot_S100000x128_S128x16_S100000x16_1_0_0_1_n_n none mean wNeigh)) (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- The second layer: `h · W_self + mean · W_neigh + b`. -/
def layer2 (h mean : Vec F S100000x16 .f32) (wSelf wNeigh : Vec F S16x40 .f32) (b : Vec F S40 .f32) : Vec F S100000x40 .f32 :=
  addf (addf (Host.dotGeneral dot_S100000x16_S16x40_S100000x40_1_0_0_1_n_n none h wSelf) (Host.dotGeneral dot_S100000x16_S16x40_S100000x40_1_0_0_1_n_n none mean wNeigh)) (broadcastInDim S100000x40 ![0, 1] bcast_S1x40_S100000x40_0_1 (broadcastInDim S1x40 ![1] bcast_S40_S1x40_1 b))

/-- The hidden features: the first layer of the input features and their mean. -/
def hidden (x : Vec F S100000x128 .f32) (src dst : (⟨S1600000, .i32⟩ : BufTy).Contents (Elt F)) (wNeigh1 wSelf1 : Vec F S128x16 .f32) (b1 : Vec F S16 .f32) : Vec F S100000x16 .f32 :=
  layer1 x (mean128 x src dst) wSelf1 wNeigh1 b1

/-- The result: the second layer of the hidden features and their mean. -/
def result (x : Vec F S100000x128 .f32) (src dst : (⟨S1600000, .i32⟩ : BufTy).Contents (Elt F)) (wNeigh1 wSelf1 : Vec F S128x16 .f32) (b1 : Vec F S16 .f32)
    (wNeigh2 wSelf2 : Vec F S16x40 .f32) (b2 : Vec F S40 .f32) : Vec F S100000x40 .f32 :=
  layer2 (hidden x src dst wNeigh1 wSelf1 b1) (mean16 (hidden x src dst wNeigh1 wSelf1 b1) src dst) wSelf2 wNeigh2 b2

end Cert.Spec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Entry.lean ====
/-
  One entry of a combine layer, on both sides.

  Over the extended reals an entry `(r, q)` of `x · W_self + mean · W_neigh + b` is the row `r` of `x` against the column
  `q` of `W_self`, plus the row `r` of `mean` against the column `q` of `W_neigh`, plus `b q` (`combineAt`). The tiled
  programme computes it from a block of 2000 rows with two products into a zero accumulator, the operands first
  rounded to a narrower format, which over the extended reals changes nothing; the reference computes it with two
  whole-array products. Both are the same sums over the contracted axis (`LibPlainDot`), the bias read through a row
  broadcast on one side and through two `broadcast_in_dim`s on the other.
-/
import proofs.«139449_j69097433858679_1_alg».proof.Proof.Gen.KernelIdeal.Skeleton
import proofs.«139449_j69097433858679_1_alg».proof.Proof.Spec
import proofs.«139449_j69097433858679_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.Entry

/-- One entry of a combine layer over the extended reals: a row of the features against a column of `W_self`, plus the
    same row of the means against the same column of `W_neigh`, plus the bias' entry. -/
def combineAt {K : Nat} (xrow mrow : Fin K → EReal) (wsCol wnCol : Fin K → EReal) (bias : EReal) : Ideal .f32 :=
  FloatOps.addf (F := Ideal) (FloatOps.addf (F := Ideal) (φ := .f32) (∑ k : Fin K, xrow k * wsCol k) (∑ k : Fin K, mrow k * wnCol k)) bias

end Cert.Entry

/-! ## The tiled programme's two bodies at an entry of their block -/

namespace Cert.KernelIdeal.Entry

open Cert.KernelIdeal Cert.KernelIdeal.Gen Cert.Entry

/-- The first body's stored value at `(p, q)` of its block of 2000 rows: the combine entry of the loaded blocks' row
    `p`, floored at zero. -/
theorem pay1_entry (xb mb : Vec Ideal S2000x128 .f32) (ws wn : Vec Ideal S128x16 .f32) (bb : Vec Ideal S1x16 .f32) (p : Fin 2000) (q : Fin 16) :
    k0_pay1 xb mb ws wn bb (ix2 p q)
      = FloatOps.maximumf (F := Ideal) (combineAt (fun k => xb (ix2 p k)) (fun k => mb (ix2 p k)) (fun k => ws (ix2 k q)) (fun k => wn (ix2 k q)) (bb (ix2 0 q))) (FloatOps.ofBits .f32 0x00000000#32) := by
  unfold k0_pay1 combineAt
  have h1 : matmul (F := Ideal) dot_S2000x128_S128x16_S2000x16_1_0_0_1_n_n none (truncf .bf16 xb bitsLt_bf16_f32) (truncf .bf16 ws bitsLt_bf16_f32) (constant (F := Ideal) S2000x16 .f32 0x00000000#32) (ix2 p q)
      = ∑ k : Fin 128, xb (ix2 p k) * ws (ix2 k q) :=
    Cert.Lib.PlainDot.matmul_zero_apply (M := 2000) (K := 128) (N := 16) none (truncf .bf16 xb bitsLt_bf16_f32) (truncf .bf16 ws bitsLt_bf16_f32) p q
  have h2 : matmul (F := Ideal) dot_S2000x128_S128x16_S2000x16_1_0_0_1_n_n none (truncf .bf16 (shapeCast S2000x128 mb shapeCasts_S2000x128_S2000x128) bitsLt_bf16_f32) (truncf .bf16 wn bitsLt_bf16_f32) (constant (F := Ideal) S2000x16 .f32 0x00000000#32) (ix2 p q)
      = ∑ k : Fin 128, mb (ix2 p k) * wn (ix2 k q) := by
    rw [shapeCast_self]
    exact Cert.Lib.PlainDot.matmul_zero_apply (M := 2000) (K := 128) (N := 16) none (truncf .bf16 mb bitsLt_bf16_f32) (truncf .bf16 wn bitsLt_bf16_f32) p q
  have h3 : broadcastTo S2000x16 (shapeCast S1x16 bb shapeCasts_S1x16_S1x16) broadcasts_S1x16_S2000x16 (ix2 p q) = bb (ix2 0 q) := by
    rw [shapeCast_self]
    exact broadcastTo_1b_ab_apply bb _ p q
  show FloatOps.maximumf (F := Ideal) (FloatOps.addf (F := Ideal) (FloatOps.addf (F := Ideal) (matmul _ none _ _ _ (ix2 p q)) (matmul _ none _ _ _ (ix2 p q))) (broadcastTo S2000x16 _ _ (ix2 p q))) _ = _
  rw [h1, h2, h3]
  rfl

/-- The second body's stored value at `(p, q)` of its block of 2000 rows: the combine entry of the loaded blocks' row `p`. -/
theorem pay2_entry (hb mb : Vec Ideal S2000x16 .f32) (ws wn : Vec Ideal S16x40 .f32) (bb : Vec Ideal S1x40 .f32) (p : Fin 2000) (q : Fin 40) :
    k1_pay1 hb mb ws wn bb (ix2 p q)
      = combineAt (fun k => hb (ix2 p k)) (fun k => mb (ix2 p k)) (fun k => ws (ix2 k q)) (fun k => wn (ix2 k q)) (bb (ix2 0 q)) := by
  unfold k1_pay1 combineAt
  have h1 : matmul (F := Ideal) dot_S2000x16_S16x40_S2000x40_1_0_0_1_n_n none (truncf .bf16 (shapeCast S2000x16 hb shapeCasts_S2000x16_S2000x16) bitsLt_bf16_f32) (truncf .bf16 ws bitsLt_bf16_f32) (constant (F := Ideal) S2000x40 .f32 0x00000000#32) (ix2 p q)
      = ∑ k : Fin 16, hb (ix2 p k) * ws (ix2 k q) := by
    rw [shapeCast_self]
    exact Cert.Lib.PlainDot.matmul_zero_apply (M := 2000) (K := 16) (N := 40) none (truncf .bf16 hb bitsLt_bf16_f32) (truncf .bf16 ws bitsLt_bf16_f32) p q
  have h2 : matmul (F := Ideal) dot_S2000x16_S16x40_S2000x40_1_0_0_1_n_n none (truncf .bf16 (shapeCast S2000x16 mb shapeCasts_S2000x16_S2000x16) bitsLt_bf16_f32) (truncf .bf16 wn bitsLt_bf16_f32) (constant (F := Ideal) S2000x40 .f32 0x00000000#32) (ix2 p q)
      = ∑ k : Fin 16, mb (ix2 p k) * wn (ix2 k q) := by
    rw [shapeCast_self]
    exact Cert.Lib.PlainDot.matmul_zero_apply (M := 2000) (K := 16) (N := 40) none (truncf .bf16 mb bitsLt_bf16_f32) (truncf .bf16 wn bitsLt_bf16_f32) p q
  have h3 : broadcastTo S2000x40 (shapeCast S1x40 bb shapeCasts_S1x40_S1x40) broadcasts_S1x40_S2000x40 (ix2 p q) = bb (ix2 0 q) := by
    rw [shapeCast_self]
    exact broadcastTo_1b_ab_apply bb _ p q
  show FloatOps.addf (F := Ideal) (FloatOps.addf (F := Ideal) (matmul _ none _ _ _ (ix2 p q)) (matmul _ none _ _ _ (ix2 p q))) (broadcastTo S2000x40 _ _ (ix2 p q)) = _
  rw [h1, h2, h3]

end Cert.KernelIdeal.Entry

/-! ## The two layers of `Spec` at an entry -/

namespace Cert.Spec

open Cert.ReferenceIdeal Cert.ReferenceIdeal.Gen Cert.Entry

/-- The first layer at `(r, q)`: the combine entry of row `r`, floored at zero. -/
theorem layer1_entry (x mean : Vec Ideal S100000x128 .f32) (ws wn : Vec Ideal S128x16 .f32) (b : Vec Ideal S16 .f32) (r : Fin 100000) (q : Fin 16) :
    layer1 (F := Ideal) x mean ws wn b (ix2 r q)
      = FloatOps.maximumf (F := Ideal) (combineAt (fun k => x (ix2 r k)) (fun k => mean (ix2 r k)) (fun k => ws (ix2 k q)) (fun k => wn (ix2 k q)) (b (ix1 q))) (FloatOps.ofBits .f32 0x00000000#32) := by
  unfold layer1 combineAt
  have h1 : Host.dotGeneral (F := Ideal) (φ₁ := .f32) (φ₂ := .f32) dot_S100000x128_S128x16_S100000x16_1_0_0_1_n_n none x ws (ix2 r q) = ∑ k : Fin 128, x (ix2 r k) * ws (ix2 k q) :=
    Cert.Lib.PlainDot.dotGeneral_apply (M := 100000) (K := 128) (N := 16) (φ₁ := .f32) (φ₂ := .f32) none _ x ws r q
  have h2 : Host.dotGeneral (F := Ideal) (φ₁ := .f32) (φ₂ := .f32) dot_S100000x128_S128x16_S100000x16_1_0_0_1_n_n none mean wn (ix2 r q) = ∑ k : Fin 128, mean (ix2 r k) * wn (ix2 k q) :=
    Cert.Lib.PlainDot.dotGeneral_apply (M := 100000) (K := 128) (N := 16) (φ₁ := .f32) (φ₂ := .f32) none _ mean wn r q
  have h3 : broadcastInDim S100000x16 ![0, 1] bcast_S1x16_S100000x16_0_1 (broadcastInDim S1x16 ![1] bcast_S16_S1x16_1 b) (ix2 r q) = b (ix1 q) := by
    refine (broadcastInDim_apply _ _ _ (ix2 r q) (ix2 (0 : Fin 1) q) fun a => ?_).trans ?_
    · match a with
      | ⟨0, _⟩ => rfl
      | ⟨1, _⟩ => rfl
    · refine broadcastInDim_apply _ _ b (ix2 (0 : Fin 1) q) (ix1 q) fun a => ?_
      match a with
      | ⟨0, _⟩ => rfl
  show FloatOps.maximumf (F := Ideal) (FloatOps.addf (F := Ideal) (FloatOps.addf (F := Ideal) (Host.dotGeneral _ none x ws (ix2 r q)) (Host.dotGeneral _ none mean wn (ix2 r q))) (broadcastInDim S100000x16 _ _ _ (ix2 r q))) _ = _
  rw [h1, h2, h3]
  rfl

/-- The second layer at `(r, q)`: the combine entry of row `r`. -/
theorem layer2_entry (h mean : Vec Ideal S100000x16 .f32) (ws wn : Vec Ideal S16x40 .f32) (b : Vec Ideal S40 .f32) (r : Fin 100000) (q : Fin 40) :
    layer2 (F := Ideal) h mean ws wn b (ix2 r q)
      = combineAt (fun k => h (ix2 r k)) (fun k => mean (ix2 r k)) (fun k => ws (ix2 k q)) (fun k => wn (ix2 k q)) (b (ix1 q)) := by
  unfold layer2 combineAt
  have h1 : Host.dotGeneral (F := Ideal) (φ₁ := .f32) (φ₂ := .f32) dot_S100000x16_S16x40_S100000x40_1_0_0_1_n_n none h ws (ix2 r q) = ∑ k : Fin 16, h (ix2 r k) * ws (ix2 k q) :=
    Cert.Lib.PlainDot.dotGeneral_apply (M := 100000) (K := 16) (N := 40) (φ₁ := .f32) (φ₂ := .f32) none _ h ws r q
  have h2 : Host.dotGeneral (F := Ideal) (φ₁ := .f32) (φ₂ := .f32) dot_S100000x16_S16x40_S100000x40_1_0_0_1_n_n none mean wn (ix2 r q) = ∑ k : Fin 16, mean (ix2 r k) * wn (ix2 k q) :=
    Cert.Lib.PlainDot.dotGeneral_apply (M := 100000) (K := 16) (N := 40) (φ₁ := .f32) (φ₂ := .f32) none _ mean wn r q
  have h3 : broadcastInDim S100000x40 ![0, 1] bcast_S1x40_S100000x40_0_1 (broadcastInDim S1x40 ![1] bcast_S40_S1x40_1 b) (ix2 r q) = b (ix1 q) := by
    refine (broadcastInDim_apply _ _ _ (ix2 r q) (ix2 (0 : Fin 1) q) fun a => ?_).trans ?_
    · match a with
      | ⟨0, _⟩ => rfl
      | ⟨1, _⟩ => rfl
    · refine broadcastInDim_apply _ _ b (ix2 (0 : Fin 1) q) (ix1 q) fun a => ?_
      match a with
      | ⟨0, _⟩ => rfl
  show FloatOps.addf (F := Ideal) (FloatOps.addf (F := Ideal) (Host.dotGeneral _ none h ws (ix2 r q)) (Host.dotGeneral _ none mean wn (ix2 r q))) (broadcastInDim S100000x40 _ _ _ (ix2 r q)) = _
  rw [h1, h2, h3]

end Cert.Spec

end
-- ==== Proof.Region0.lean ====
/-
  The first tiled layer, as one array.

  The first pallas_call walks the 100000 nodes in 50 blocks of 2000 rows. At block `t` its body sees rows
  `2000 t … 2000 t + 1999` of the features and of the means, the two weight matrices and the bias row whole, and
  stores, at `(p, q)` of its output block, the combine entry of row `p` of its blocks floored at zero: that is entry
  `(2000 t + p, q)` of `Spec.layer1` of the whole arrays. The 50 output blocks tile the output array, so after the
  region the array holds `Spec.layer1` of the arrays the region found — whatever those were (`V`): the statement is
  about the region alone, and the run instantiates it at the contents the host operations before it leave.
-/
import proofs.«139449_j69097433858679_1_alg».proof.Proof.Gen.KernelIdeal.Frame
import proofs.«139449_j69097433858679_1_alg».proof.Proof.Entry
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen Cert.Entry

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- The block index of each window at point `t`, decided over the grid: the two row-blocked inputs and the output are at
    row block `t`, the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the feature block at point `t` is row `2000 t + p` of the feature array. -/
theorem xblk_apply (c : Dev nD) (t : Fin cfg0.N) (p : Fin 2000) (k : Fin 128) (r : Fin 100000) (hr : r.val = 2000 * t.val + p.val) :
    (iblk0 V c 0 t : Vec Ideal S2000x128 .f32) (ix2 p k) = (V c main_arg0 : Vec Ideal S100000x128 .f32) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- Row `p` of the mean block at point `t` is row `2000 t + p` of the mean array. -/
theorem mblk_apply (c : Dev nD) (t : Fin cfg0.N) (p : Fin 2000) (k : Fin 128) (r : Fin 100000) (hr : r.val = 2000 * t.val + p.val) :
    (iblk0 V c 1 t : Vec Ideal S2000x128 .f32) (ix2 p k) = (V c main_v18 : Vec Ideal S100000x128 .f32) (ix2 r k) := by
  obtain ⟨-, -, e0, e1, -⟩ := idx_facts t
  unfold iblk0
  rw [View.read_apply]
  show V c main_v18 _ = V c main_v18 _
  congr 1
  funext a
  apply Fin.ext
  match a with
  | ⟨0, _⟩ => show win0_1.index t 0 * 2000 + 1 * p.val = r.val; rw [e0, hr]; omega
  | ⟨1, _⟩ => show win0_1.index t 1 * 128 + 1 * k.val = k.val; rw [e1]; omega

/-- The self-weight block is the whole self-weight array. -/
theorem wsblk_apply (c : Dev nD) (t : Fin cfg0.N) (k : Fin 128) (q : Fin 16) :
    (iblk0 V c 2 t : Vec Ideal S128x16 .f32) (ix2 k q) = (V c main_arg4 : Vec Ideal S128x16 .f32) (ix2 k q) := by
  obtain ⟨-, -, -, -, e0, e1, -⟩ := idx_facts t
  unfold iblk0
  rw [View.read_apply]
  show V c main_arg4 _ = V c main_arg4 _
  congr 1
  funext a
  apply Fin.ext
  match a with
  | ⟨0, _⟩ => show win0_2.index t 0 * 128 + 1 * k.val = k.val; rw [e0]; omega
  | ⟨1, _⟩ => show win0_2.index t 1 * 16 + 1 * q.val = q.val; rw [e1]; omega

/-- The neighbour-weight block is the whole neighbour-weight array. -/
theorem wnblk_apply (c : Dev nD) (t : Fin cfg0.N) (k : Fin 128) (q : Fin 16) :
    (iblk0 V c 3 t : Vec Ideal S128x16 .f32) (ix2 k q) = (V c main_arg3 : Vec Ideal S128x16 .f32) (ix2 k q) := by
  obtain ⟨-, -, -, -, -, -, e0, e1, -⟩ := idx_facts t
  unfold iblk0
  rw [View.read_apply]
  show V c main_arg3 _ = V c main_arg3 _
  congr 1
  funext a
  apply Fin.ext
  match a with
  | ⟨0, _⟩ => show win0_3.index t 0 * 128 + 1 * k.val = k.val; rw [e0]; omega
  | ⟨1, _⟩ => show win0_3.index t 1 * 16 + 1 * q.val = q.val; rw [e1]; omega

/-- The bias block is the whole bias row. -/
theorem bblk_apply (c : Dev nD) (t : Fin cfg0.N) (q : Fin 16) :
    (iblk0 V c 4 t : Vec Ideal S1x16 .f32) (ix2 0 q) = (V c main_v19 : Vec Ideal S1x16 .f32) (ix2 0 q) := by
  obtain ⟨-, -, -, -, -, -, -, -, e0, e1, -⟩ := idx_facts t
  unfold iblk0
  rw [View.read_apply]
  show V c main_v19 _ = V c main_v19 _
  congr 1
  funext a
  apply Fin.ext
  match a with
  | ⟨0, _⟩ => show win0_4.index t 0 * 1 + 1 * 0 = 0; rw [e0]
  | ⟨1, _⟩ => show win0_4.index t 1 * 16 + 1 * q.val = q.val; rw [e1]; omega

/-- Entry `(p, q)` of the output block at point `t` sits at `(2000 t + p, q)` of the output array. -/
theorem oemb (t : Fin cfg0.N) (p : Fin 2000) (q : Fin 16) (r : Fin 100000) (hr : r.val = 2000 * t.val + p.val) :
    ((cfg0.win 5).blk t).view.emb (ix2 p q) = (ix2 r q : S100000x16.Idx) := by
  obtain ⟨-, -, -, -, -, -, -, -, -, -, e0, e1⟩ := idx_facts t
  funext a
  apply Fin.ext
  match a with
  | ⟨0, _⟩ => show win0_5.index t 0 * 2000 + 1 * p.val = r.val; rw [e0, hr]; omega
  | ⟨1, _⟩ => show win0_5.index t 1 * 16 + 1 * q.val = q.val; rw [e1]; omega

/-- What point `t` writes back is block `t` of `Spec.layer1` of the arrays the region found, `b` the vector whose row the
    bias array holds. -/
theorem flushed_eq (c : Dev nD) (t : Fin cfg0.N) (b : Vec Ideal S16 .f32) (hb : ∀ q : Fin 16, (V c main_v19 : Vec Ideal S1x16 .f32) (ix2 0 q) = b (ix1 q)) :
    (dat0 V c).flushed 5 t = ((cfg0.win 5).blk t).view.read (Elt Ideal) (Cert.Spec.layer1 (F := Ideal) (V c main_arg0) (V c main_v18) (V c main_arg4) (V c main_arg3) b) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x16) hz, View.ld_unit_zero (S := S1x16) hz]
  funext j
  obtain ⟨p, q, rfl⟩ : ∃ (p : Fin 2000) (q : Fin 16), j = ix2 p q := ⟨j 0, j 1, eq_ix2 j⟩
  have ht : t.val < 50 := lt_of_lt_of_eq t.isLt N_0
  have hp : p.val < 2000 := p.isLt
  let r : Fin 100000 := ⟨2000 * t.val + p.val, by omega⟩
  have hr : r.val = 2000 * t.val + p.val := rfl
  show k0_pay1 (iblk0 V c 0 t) (iblk0 V c 1 t) (iblk0 V c 2 t) (iblk0 V c 3 t) (iblk0 V c 4 t) (ix2 p q)
    = Cert.Spec.layer1 (F := Ideal) (V c main_arg0) (V c main_v18) (V c main_arg4) (V c main_arg3) b (((cfg0.win 5).blk t).view.emb (ix2 p q))
  rw [oemb t p q r hr]
  have e0 : (fun k : Fin 128 => (iblk0 V c 0 t : Vec Ideal S2000x128 .f32) (ix2 p k)) = fun k => (V c main_arg0 : Vec Ideal S100000x128 .f32) (ix2 r k) :=
    funext fun k => xblk_apply V c t p k r hr
  have e1 : (fun k : Fin 128 => (iblk0 V c 1 t : Vec Ideal S2000x128 .f32) (ix2 p k)) = fun k => (V c main_v18 : Vec Ideal S100000x128 .f32) (ix2 r k) :=
    funext fun k => mblk_apply V c t p k r hr
  have e2 : (fun k : Fin 128 => (iblk0 V c 2 t : Vec Ideal S128x16 .f32) (ix2 k q)) = fun k => (V c main_arg4 : Vec Ideal S128x16 .f32) (ix2 k q) :=
    funext fun k => wsblk_apply V c t k q
  have e3 : (fun k : Fin 128 => (iblk0 V c 3 t : Vec Ideal S128x16 .f32) (ix2 k q)) = fun k => (V c main_arg3 : Vec Ideal S128x16 .f32) (ix2 k q) :=
    funext fun k => wnblk_apply V c t k q
  have e4 : (iblk0 V c 4 t : Vec Ideal S1x16 .f32) (ix2 0 q) = b (ix1 q) := (bblk_apply V c t q).trans (hb q)
  refine (Cert.KernelIdeal.Entry.pay1_entry (iblk0 V c 0 t) (iblk0 V c 1 t) (iblk0 V c 2 t) (iblk0 V c 3 t) (iblk0 V c 4 t) p q).trans ?_
  rw [e0, e1, e2, e3, e4]
  exact (Cert.Spec.layer1_entry (V c main_arg0) (V c main_v18) (V c main_arg4) (V c main_arg3) b r q).symm

/-- Every row of the output array is in the block of the point that holds it. -/
theorem cover (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  let t : Fin cfg0.N := ⟨(i 0).val / 2000, lt_of_lt_of_eq (by omega : (i 0).val / 2000 < 50) N_0.symm⟩
  have htv : t.val = (i 0).val / 2000 := rfl
  obtain ⟨-, -, -, -, -, -, -, -, -, -, e0, e1⟩ := idx_facts t
  refine ⟨t, flush0_5 t, ?_⟩
  show i ∈ ((View.whole main_v20).slice (win0_5.rect t)).set
  rw [View.set_slice_whole, Rect.mem_set_unit]
  intro a
  match a with
  | ⟨0, _⟩ => show win0_5.index t 0 * 2000 ≤ (i 0).val ∧ (i 0).val < win0_5.index t 0 * 2000 + 2000; rw [e0, htv]; omega
  | ⟨1, _⟩ => show win0_5.index t 1 * 16 ≤ (i 1).val ∧ (i 1).val < win0_5.index t 1 * 16 + 16; rw [e1]; omega

/-- After the region the output array holds `Spec.layer1` of the arrays the region found. -/
theorem value (c : Dev nD) (b : Vec Ideal S16 .f32) (hb : ∀ q : Fin 16, (V c main_v19 : Vec Ideal S1x16 .f32) (ix2 0 q) = b (ix1 q)) :
    (dat0 V c).arrAt 5 cfg0.N = Cert.Spec.layer1 (F := Ideal) (V c main_arg0) (V c main_v18) (V c main_arg4) (V c main_arg3) b :=
  (dat0 V c).arrAt_eq_of_cover 5 _ (fun t _ => flushed_eq V c t b hb) cover

end Cert.KernelIdeal.Region0
end
-- ==== Proof.Region1.lean ====
/-
  The second tiled layer, as one array.

  The second pallas_call walks the 100000 nodes in 50 blocks of 2000 rows again, now over the 16 hidden features. At
  block `t` its body sees rows `2000 t … 2000 t + 1999` of the hidden features and of their means, the two 16×40
  weight matrices and the bias row whole, and stores, at `(p, q)` of its output block, the combine entry of row `p` of
  its blocks: entry `(2000 t + p, q)` of `Spec.layer2` of the whole arrays. The 50 output blocks tile the output
  array, so after the region the array holds `Spec.layer2` of the arrays the region found, whatever those were (`V`).
-/
import proofs.«139449_j69097433858679_1_alg».proof.Proof.Gen.KernelIdeal.Frame
import proofs.«139449_j69097433858679_1_alg».proof.Proof.Entry
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.Entry

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- The block index of each window at point `t`, decided over the grid: the two row-blocked inputs and the output are at
    row block `t`, the weights and the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the hidden-feature block at point `t` is row `2000 t + p` of the hidden-feature array. -/
theorem xblk_apply (c : Dev nD) (t : Fin cfg1.N) (p : Fin 2000) (k : Fin 16) (r : Fin 100000) (hr : r.val = 2000 * t.val + p.val) :
    (iblk1 V c 0 t : Vec Ideal S2000x16 .f32) (ix2 p k) = (V c main_v20 : Vec Ideal S100000x16 .f32) (ix2 r k) := by
  obtain ⟨e0, e1, -⟩ := idx_facts t
  unfold iblk1
  rw [View.read_apply]
  show V c main_v20 _ = V c main_v20 _
  congr 1
  funext a
  apply Fin.ext
  match a with
  | ⟨0, _⟩ => show win1_0.index t 0 * 2000 + 1 * p.val = r.val; rw [e0, hr]; omega
  | ⟨1, _⟩ => show win1_0.index t 1 * 16 + 1 * k.val = k.val; rw [e1]; omega

/-- Row `p` of the mean block at point `t` is row `2000 t + p` of the mean array. -/
theorem mblk_apply (c : Dev nD) (t : Fin cfg1.N) (p : Fin 2000) (k : Fin 16) (r : Fin 100000) (hr : r.val = 2000 * t.val + p.val) :
    (iblk1 V c 1 t : Vec Ideal S2000x16 .f32) (ix2 p k) = (V c main_v39 : Vec Ideal S100000x16 .f32) (ix2 r k) := by
  obtain ⟨-, -, e0, e1, -⟩ := idx_facts t
  unfold iblk1
  rw [View.read_apply]
  show V c main_v39 _ = V c main_v39 _
  congr 1
  funext a
  apply Fin.ext
  match a with
  | ⟨0, _⟩ => show win1_1.index t 0 * 2000 + 1 * p.val = r.val; rw [e0, hr]; omega
  | ⟨1, _⟩ => show win1_1.index t 1 * 16 + 1 * k.val = k.val; rw [e1]; omega

/-- The self-weight block is the whole self-weight array. -/
theorem wsblk_apply (c : Dev nD) (t : Fin cfg1.N) (k : Fin 16) (q : Fin 40) :
    (iblk1 V c 2 t : Vec Ideal S16x40 .f32) (ix2 k q) = (V c main_arg7 : Vec Ideal S16x40 .f32) (ix2 k q) := by
  obtain ⟨-, -, -, -, e0, e1, -⟩ := idx_facts t
  unfold iblk1
  rw [View.read_apply]
  show V c main_arg7 _ = V c main_arg7 _
  congr 1
  funext a
  apply Fin.ext
  match a with
  | ⟨0, _⟩ => show win1_2.index t 0 * 16 + 1 * k.val = k.val; rw [e0]; omega
  | ⟨1, _⟩ => show win1_2.index t 1 * 40 + 1 * q.val = q.val; rw [e1]; omega

/-- The neighbour-weight block is the whole neighbour-weight array. -/
theorem wnblk_apply (c : Dev nD) (t : Fin cfg1.N) (k : Fin 16) (q : Fin 40) :
    (iblk1 V c 3 t : Vec Ideal S16x40 .f32) (ix2 k q) = (V c main_arg6 : Vec Ideal S16x40 .f32) (ix2 k q) := by
  obtain ⟨-, -, -, -, -, -, e0, e1, -⟩ := idx_facts t
  unfold iblk1
  rw [View.read_apply]
  show V c main_arg6 _ = V c main_arg6 _
  congr 1
  funext a
  apply Fin.ext
  match a with
  | ⟨0, _⟩ => show win1_3.index t 0 * 16 + 1 * k.val = k.val; rw [e0]; omega
  | ⟨1, _⟩ => show win1_3.index t 1 * 40 + 1 * q.val = q.val; rw [e1]; omega

/-- The bias block is the whole bias row. -/
theorem bblk_apply (c : Dev nD) (t : Fin cfg1.N) (q : Fin 40) :
    (iblk1 V c 4 t : Vec Ideal S1x40 .f32) (ix2 0 q) = (V c main_v40 : Vec Ideal S1x40 .f32) (ix2 0 q) := by
  obtain ⟨-, -, -, -, -, -, -, -, e0, e1, -⟩ := idx_facts t
  unfold iblk1
  rw [View.read_apply]
  show V c main_v40 _ = V c main_v40 _
  congr 1
  funext a
  apply Fin.ext
  match a with
  | ⟨0, _⟩ => show win1_4.index t 0 * 1 + 1 * 0 = 0; rw [e0]
  | ⟨1, _⟩ => show win1_4.index t 1 * 40 + 1 * q.val = q.val; rw [e1]; omega

/-- Entry `(p, q)` of the output block at point `t` sits at `(2000 t + p, q)` of the output array. -/
theorem oemb (t : Fin cfg1.N) (p : Fin 2000) (q : Fin 40) (r : Fin 100000) (hr : r.val = 2000 * t.val + p.val) :
    ((cfg1.win 5).blk t).view.emb (ix2 p q) = (ix2 r q : S100000x40.Idx) := by
  obtain ⟨-, -, -, -, -, -, -, -, -, -, e0, e1⟩ := idx_facts t
  funext a
  apply Fin.ext
  match a with
  | ⟨0, _⟩ => show win1_5.index t 0 * 2000 + 1 * p.val = r.val; rw [e0, hr]; omega
  | ⟨1, _⟩ => show win1_5.index t 1 * 40 + 1 * q.val = q.val; rw [e1]; omega

/-- What point `t` writes back is block `t` of `Spec.layer2` of the arrays the region found, `b` the vector whose row the
    bias array holds. -/
theorem flushed_eq (c : Dev nD) (t : Fin cfg1.N) (b : Vec Ideal S40 .f32) (hb : ∀ q : Fin 40, (V c main_v40 : Vec Ideal S1x40 .f32) (ix2 0 q) = b (ix1 q)) :
    (dat1 V c).flushed 5 t = ((cfg1.win 5).blk t).view.read (Elt Ideal) (Cert.Spec.layer2 (F := Ideal) (V c main_v20) (V c main_v39) (V c main_arg7) (V c main_arg6) b) := by
  show (cfg1.win 5).cut (grid1.coords t) ((dat1 V c).after 5 t) = _
  rw [after1_5]
  unfold out1_5
  rw [View.canon_unit_zero hz]
  simp only [View.ld_unit_zero (S := S2000x16) hz, View.ld_unit_zero (S := S16x40) hz, View.ld_unit_zero (S := S1x40) hz]
  funext j
  obtain ⟨p, q, rfl⟩ : ∃ (p : Fin 2000) (q : Fin 40), j = ix2 p q := ⟨j 0, j 1, eq_ix2 j⟩
  have ht : t.val < 50 := lt_of_lt_of_eq t.isLt N_1
  have hp : p.val < 2000 := p.isLt
  let r : Fin 100000 := ⟨2000 * t.val + p.val, by omega⟩
  have hr : r.val = 2000 * t.val + p.val := rfl
  show k1_pay1 (iblk1 V c 0 t) (iblk1 V c 1 t) (iblk1 V c 2 t) (iblk1 V c 3 t) (iblk1 V c 4 t) (ix2 p q)
    = Cert.Spec.layer2 (F := Ideal) (V c main_v20) (V c main_v39) (V c main_arg7) (V c main_arg6) b (((cfg1.win 5).blk t).view.emb (ix2 p q))
  rw [oemb t p q r hr]
  have e0 : (fun k : Fin 16 => (iblk1 V c 0 t : Vec Ideal S2000x16 .f32) (ix2 p k)) = fun k => (V c main_v20 : Vec Ideal S100000x16 .f32) (ix2 r k) :=
    funext fun k => xblk_apply V c t p k r hr
  have e1 : (fun k : Fin 16 => (iblk1 V c 1 t : Vec Ideal S2000x16 .f32) (ix2 p k)) = fun k => (V c main_v39 : Vec Ideal S100000x16 .f32) (ix2 r k) :=
    funext fun k => mblk_apply V c t p k r hr
  have e2 : (fun k : Fin 16 => (iblk1 V c 2 t : Vec Ideal S16x40 .f32) (ix2 k q)) = fun k => (V c main_arg7 : Vec Ideal S16x40 .f32) (ix2 k q) :=
    funext fun k => wsblk_apply V c t k q
  have e3 : (fun k : Fin 16 => (iblk1 V c 3 t : Vec Ideal S16x40 .f32) (ix2 k q)) = fun k => (V c main_arg6 : Vec Ideal S16x40 .f32) (ix2 k q) :=
    funext fun k => wnblk_apply V c t k q
  have e4 : (iblk1 V c 4 t : Vec Ideal S1x40 .f32) (ix2 0 q) = b (ix1 q) := (bblk_apply V c t q).trans (hb q)
  refine (Cert.KernelIdeal.Entry.pay2_entry (iblk1 V c 0 t) (iblk1 V c 1 t) (iblk1 V c 2 t) (iblk1 V c 3 t) (iblk1 V c 4 t) p q).trans ?_
  rw [e0, e1, e2, e3, e4]
  exact (Cert.Spec.layer2_entry (V c main_v20) (V c main_v39) (V c main_arg7) (V c main_arg6) b r q).symm

/-- Every row of the output array is in the block of the point that holds it. -/
theorem cover (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  let t : Fin cfg1.N := ⟨(i 0).val / 2000, lt_of_lt_of_eq (by omega : (i 0).val / 2000 < 50) N_1.symm⟩
  have htv : t.val = (i 0).val / 2000 := rfl
  obtain ⟨-, -, -, -, -, -, -, -, -, -, e0, e1⟩ := idx_facts t
  refine ⟨t, flush1_5 t, ?_⟩
  show i ∈ ((View.whole main_v41).slice (win1_5.rect t)).set
  rw [View.set_slice_whole, Rect.mem_set_unit]
  intro a
  match a with
  | ⟨0, _⟩ => show win1_5.index t 0 * 2000 ≤ (i 0).val ∧ (i 0).val < win1_5.index t 0 * 2000 + 2000; rw [e0, htv]; omega
  | ⟨1, _⟩ => show win1_5.index t 1 * 40 ≤ (i 1).val ∧ (i 1).val < win1_5.index t 1 * 40 + 40; rw [e1]; omega

/-- After the region the output array holds `Spec.layer2` of the arrays the region found. -/
theorem value (c : Dev nD) (b : Vec Ideal S40 .f32) (hb : ∀ q : Fin 40, (V c main_v40 : Vec Ideal S1x40 .f32) (ix2 0 q) = b (ix1 q)) :
    (dat1 V c).arrAt 5 cfg1.N = Cert.Spec.layer2 (F := Ideal) (V c main_v20) (V c main_v39) (V c main_arg7) (V c main_arg6) b :=
  (dat1 V c).arrAt_eq_of_cover 5 _ (fun t _ => flushed_eq V c t b hb) cover

end Cert.KernelIdeal.Region1
end
-- ==== Proof.Fold.lean ====
/-
  The contents at the boundaries of the run, read back to the arguments.

  @main is a stretch of host operations, the first pallas_call, a second stretch, the second pallas_call. The run
  names the buffers' contents at each boundary as a fold from the launch memory: `W1` after the first stretch, `W2`
  after the first region (its output array at what the region leaves, everything else as before), `W3` after the
  second stretch, `W4` after the second region. Here each buffer a region reads is read through that fold:
  * the first stretch computes the mean of the input features (`Spec.mean128` of the arguments) and reshapes the
    first bias to a row; it writes no argument;
  * so the first region's output is `Spec.hidden` of the arguments (`Region0.value`);
  * the second stretch computes the mean of that output (`Spec.mean16`) and reshapes the second bias; it writes
    neither the hidden features nor an argument;
  * so the second region's output, the result, is `Spec.result` of the arguments (`Region1.value`).
  The host stretches are the same operations as the reference's, so each is read as the `Spec` function by unfolding.
-/
import proofs.«139449_j69097433858679_1_alg».proof.Proof.Gen.KernelIdeal.Frame
import proofs.«139449_j69097433858679_1_alg».proof.Proof.Spec
import proofs.«139449_j69097433858679_1_alg».proof.Proof.Region0
import proofs.«139449_j69097433858679_1_alg».proof.Proof.Region1
import Idealize.ShloMosaic.Lib.StableHlo.Run
import Idealize.ShloMosaic.Lib.ValueLayout

set_option maxRecDepth 16384

noncomputable section

open Idealize.ShloMosaic Idealize.ShloMosaic.TcCoe Idealize.ShloMosaic.ValueIdx Idealize.SL.Sem Idealize.ShloMosaic.StableHlo

namespace Cert.KernelIdeal.Fold

open Cert.KernelIdeal Cert.KernelIdeal.Gen

variable {F : FTy → Type} [FloatOps F]
variable (m : (ℓ : Loc nD τ sig) → Buf (Elt F) ℓ) (ρ : Dev nD → PrngReg)

set_option maxHeartbeats 4000000 in
/-- At the first region's entry the mean array holds the mean of the input features over the in-neighbours. -/
theorem mean1_eq (c : Dev nD) :
    V1 m ρ c main_v18 = Cert.Spec.mean128 (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  unfold Cert.Spec.mean128 Cert.Spec.degree Cert.Spec.targetRows Cert.Spec.sourceRows
  rfl

set_option maxHeartbeats 4000000 in
/-- At the first region's entry the bias row is the first bias reshaped to one row. -/
theorem bias1_eq (c : Dev nD) :
    V1 m ρ c main_v19 = shapeCast S1x16 (m ((c : Thread nD τ).loc main_arg5)) shapeCasts_S16_S1x16 := by
  show StableHlo.after hostOps0 (W0 m ρ c) (Proc.devRef .tc main_v19) = _
  after_results_simp
  rfl

/-- Entry `(0, q)` of that row is entry `q` of the bias. -/
theorem bias1_row (c : Dev nD) (q : Fin 16) :
    (V1 m ρ c main_v19 : Vec F S1x16 .f32) (ix2 0 q) = (m ((c : Thread nD τ).loc main_arg5) : Vec F S16 .f32) (ix1 q) := by
  rw [bias1_eq]
  exact shapeCast_a_1a_apply _ _ 0 q

set_option maxHeartbeats 4000000 in
/-- The first stretch writes no argument: the input features are, after it, as launched. -/
theorem arg0_at1 (c : Dev nD) : V1 m ρ c main_arg0 = m ((c : Thread nD τ).loc main_arg0) := by
  show StableHlo.after hostOps0 (W0 m ρ c) (Proc.devRef .tc main_arg0) = _
  after_results_simp <;> rfl
set_option maxHeartbeats 4000000 in
/-- Likewise the first layer's neighbour weights. -/
theorem arg3_at1 (c : Dev nD) : V1 m ρ c main_arg3 = m ((c : Thread nD τ).loc main_arg3) := by
  show StableHlo.after hostOps0 (W0 m ρ c) (Proc.devRef .tc main_arg3) = _
  after_results_simp <;> rfl
set_option maxHeartbeats 4000000 in
/-- Likewise the first layer's self weights. -/
theorem arg4_at1 (c : Dev nD) : V1 m ρ c main_arg4 = m ((c : Thread nD τ).loc main_arg4) := by
  show StableHlo.after hostOps0 (W0 m ρ c) (Proc.devRef .tc main_arg4) = _
  after_results_simp <;> rfl
set_option maxHeartbeats 4000000 in
/-- Likewise the edges' sources. -/
theorem arg1_at1 (c : Dev nD) : W1 m ρ c (Proc.devRef .tc main_arg1) = m ((c : Thread nD τ).loc main_arg1) := by
  show StableHlo.after hostOps0 (W0 m ρ c) (Proc.devRef .tc main_arg1) = _
  after_results_simp <;> rfl
set_option maxHeartbeats 4000000 in
/-- Likewise the edges' targets. -/
theorem arg2_at1 (c : Dev nD) : W1 m ρ c (Proc.devRef .tc main_arg2) = m ((c : Thread nD τ).loc main_arg2) := by
  show StableHlo.after hostOps0 (W0 m ρ c) (Proc.devRef .tc main_arg2) = _
  after_results_simp <;> rfl
set_option maxHeartbeats 4000000 in
/-- Likewise the second bias. -/
theorem arg8_at1 (c : Dev nD) : W1 m ρ c (Proc.devRef .tc main_arg8) = m ((c : Thread nD τ).loc main_arg8) := by
  show StableHlo.after hostOps0 (W0 m ρ c) (Proc.devRef .tc main_arg8) = _
  after_results_simp <;> rfl

/-- Nor does the first region write an argument that is none of its arrays: the edges' sources after it. -/
theorem arg1_at2 (c : Dev nD) : W2 m ρ c (Proc.devRef .tc main_arg1) = m ((c : Thread nD τ).loc main_arg1) :=
  (W2_of_ne m ρ c main_arg1 (by decide)).trans (arg1_at1 m ρ c)
/-- The edges' targets after the first region. -/
theorem arg2_at2 (c : Dev nD) : W2 m ρ c (Proc.devRef .tc main_arg2) = m ((c : Thread nD τ).loc main_arg2) :=
  (W2_of_ne m ρ c main_arg2 (by decide)).trans (arg2_at1 m ρ c)
/-- The second bias after the first region. -/
theorem arg8_at2 (c : Dev nD) : W2 m ρ c (Proc.devRef .tc main_arg8) = m ((c : Thread nD τ).loc main_arg8) :=
  (W2_of_ne m ρ c main_arg8 (by decide)).trans (arg8_at1 m ρ c)

set_option maxHeartbeats 4000000 in
/-- The second stretch does not write the first region's output. -/
theorem hidden_at3 (c : Dev nD) : V3 m ρ c main_v20 = W2 m ρ c (Proc.devRef .tc main_v20) := by
  show StableHlo.after hostOps1 (W2 m ρ c) (Proc.devRef .tc main_v20) = _
  after_results_simp <;> rfl

set_option maxHeartbeats 4000000 in
/-- At the second region's entry the second mean array holds the mean, over the in-neighbours, of the first region's
    output. -/
theorem mean2_eq (c : Dev nD) :
    V3 m ρ c main_v39 = Cert.Spec.mean16 (W2 m ρ c (Proc.devRef .tc main_v20)) (W2 m ρ c (Proc.devRef .tc main_arg1)) (W2 m ρ c (Proc.devRef .tc main_arg2)) := by
  show StableHlo.after hostOps1 (W2 m ρ c) (Proc.devRef .tc main_v39) = _
  after_results_simp
  unfold Cert.Spec.mean16 Cert.Spec.degree Cert.Spec.targetRows Cert.Spec.sourceRows
  rfl

set_option maxHeartbeats 4000000 in
/-- At the second region's entry the second bias row is the second bias reshaped to one row. -/
theorem bias2_eq (c : Dev nD) :
    V3 m ρ c main_v40 = shapeCast S1x40 (W2 m ρ c (Proc.devRef .tc main_arg8)) shapeCasts_S40_S1x40 := by
  show StableHlo.after hostOps1 (W2 m ρ c) (Proc.devRef .tc main_v40) = _
  after_results_simp
  rfl

/-- Entry `(0, q)` of that row is entry `q` of the second bias. -/
theorem bias2_row (c : Dev nD) (q : Fin 40) :
    (V3 m ρ c main_v40 : Vec F S1x40 .f32) (ix2 0 q) = (m ((c : Thread nD τ).loc main_arg8) : Vec F S40 .f32) (ix1 q) := by
  rw [bias2_eq, arg8_at2]
  exact shapeCast_a_1a_apply _ _ 0 q

set_option maxHeartbeats 4000000 in
/-- Likewise the second layer's self weights. -/
theorem arg7_at1 (c : Dev nD) : W1 m ρ c (Proc.devRef .tc main_arg7) = m ((c : Thread nD τ).loc main_arg7) := by
  show StableHlo.after hostOps0 (W0 m ρ c) (Proc.devRef .tc main_arg7) = _
  after_results_simp <;> rfl
set_option maxHeartbeats 4000000 in
/-- Likewise the second layer's neighbour weights. -/
theorem arg6_at1 (c : Dev nD) : W1 m ρ c (Proc.devRef .tc main_arg6) = m ((c : Thread nD τ).loc main_arg6) := by
  show StableHlo.after hostOps0 (W0 m ρ c) (Proc.devRef .tc main_arg6) = _
  after_results_simp <;> rfl
set_option maxHeartbeats 4000000 in
/-- The second layer's self weights reach the second region as launched. -/
theorem arg7_at3 (c : Dev nD) : V3 m ρ c main_arg7 = m ((c : Thread nD τ).loc main_arg7) := by
  show StableHlo.after hostOps1 (W2 m ρ c) (Proc.devRef .tc main_arg7) = _
  after_results_simp
  exact (W2_of_ne m ρ c main_arg7 (by decide)).trans (arg7_at1 m ρ c)
set_option maxHeartbeats 4000000 in
/-- The second layer's neighbour weights reach the second region as launched. -/
theorem arg6_at3 (c : Dev nD) : V3 m ρ c main_arg6 = m ((c : Thread nD τ).loc main_arg6) := by
  show StableHlo.after hostOps1 (W2 m ρ c) (Proc.devRef .tc main_arg6) = _
  after_results_simp
  exact (W2_of_ne m ρ c main_arg6 (by decide)).trans (arg6_at1 m ρ c)

end Cert.KernelIdeal.Fold

namespace Cert.KernelIdeal.FoldIdeal

open Cert.KernelIdeal Cert.KernelIdeal.Gen Cert.KernelIdeal.Fold

variable (m : (ℓ : Loc nD τ sig) → Buf (Elt Ideal) ℓ) (ρ : Dev nD → PrngReg)

/-- After the first region its output array holds the hidden features: the first layer of the input features and
    their mean. -/
theorem hidden_eq (c : Dev nD) :
    W2 m ρ c (Proc.devRef .tc main_v20)
      = Cert.Spec.hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W2_arr m ρ c 5).trans ?_
  rw [Cert.KernelIdeal.Region0.value (V1 m ρ) c (m ((c : Thread nD τ).loc main_arg5)) (bias1_row m ρ c)]
  rw [mean1_eq, arg0_at1, arg4_at1, arg3_at1]
  rfl

/-- After the second region the result array holds the second layer of the hidden features and their mean. -/
theorem result_eq (c : Dev nD) :
    W4 m ρ c (Proc.devRef .tc main_v41)
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_arr m ρ c 5).trans ?_
  rw [Cert.KernelIdeal.Region1.value (V3 m ρ) c (m ((c : Thread nD τ).loc main_arg8)) (bias2_row m ρ c)]
  rw [hidden_at3, mean2_eq, arg7_at3, arg6_at3, hidden_eq, arg1_at2, arg2_at2]
  rfl

end Cert.KernelIdeal.FoldIdeal
end
-- ==== Proof.RefSide.lean ====
/-
  The reference's run, read: its result is the two-layer function of `Spec` of the arguments.

  The reference is a straight line of host operations; its composed term applies, operation for operation, the
  gather along the edges' sources, the two scatter-adds along their targets, the division by the floored degree,
  the two matrix products, the bias and the maximum with zero, twice over. That is `Spec.result` unfolded.
-/
import proofs.«139449_j69097433858679_1_alg».proof.Defs
import proofs.«139449_j69097433858679_1_alg».proof.Proof.Gen.ReferenceIdeal
import proofs.«139449_j69097433858679_1_alg».proof.Proof.Gen.ReferenceIdeal.Run
import proofs.«139449_j69097433858679_1_alg».proof.Proof.Spec

noncomputable section

namespace Cert.RefSide

open Idealize.ShloMosaic Idealize.ShloMosaic.TcCoe Idealize.SL.Sem Cert.ReferenceIdeal

variable {F : FTy → Type} [FloatOps F]

/-- The reference's result term is `Spec.result` of its arguments' launch contents. -/
theorem result_eq (m : (ℓ : Loc nD τ sig) → Buf (Elt F) ℓ) (c : Dev nD) :
    Cert.ReferenceIdeal.Value.res_out0 m c
      = Cert.Spec.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  show Cert.ReferenceIdeal.Value.res_main_v50 m c = _
  unfold Cert.ReferenceIdeal.Value.res_main_v50 Cert.Spec.result Cert.Spec.layer2 Cert.Spec.hidden Cert.Spec.layer1 Cert.Spec.mean16 Cert.Spec.mean128 Cert.Spec.degree Cert.Spec.targetRows Cert.Spec.sourceRows
  rfl

/-- The reference's run with its result named by `Spec.result`. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = Cert.Spec.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_eq m c), (h c).2⟩) (Cert.ReferenceIdeal.Value.run m ρ)

end Cert.RefSide

end
-- ==== Proof.lean ====
/-
  Two rounds of mean aggregation over a graph's in-neighbours, each followed by a dense combine
  `self · W_self + mean · W_neigh + b` (the first floored at zero): the tiled programme against its one-piece
  reference, over the extended reals.

  Both programmes aggregate with the same host operations — gather the source rows along the edges, scatter-add
  them at the target rows, divide by the in-degree floored at one — so the aggregation is carried as one function
  (`Spec.mean128`, `Spec.mean16`) and never opened. They differ in the combine only: the reference multiplies the
  whole 100000-row arrays; the tiled programme walks them in 50 blocks of 2000 rows, rounds the operands of its
  products to a narrower format (the identity over the extended reals) and accumulates into zero. Entry by entry
  both are the same two sums over the contracted axis plus the bias (`Entry`), each block of the tiled output is the
  block of the whole-array layer (`Region0`, `Region1`), the blocks tile the array, and the contents at the
  boundaries between host stretches and regions compose to `Spec.result` of the arguments (`Fold`). The
  reference's run ends at the same term (`RefSide`). No law used needs the inputs finite.

  The three frames: the tiled programme's two, at the bit-level and the ideal instance, are the generated ones;
  the reference's is its run with the result dropped. The idealisation rewrote no operation, so `preserves` is trivial.
-/
import proofs.«139449_j69097433858679_1_alg».proof.Defs
import proofs.«139449_j69097433858679_1_alg».proof.Proof.Gen.Kernel
import proofs.«139449_j69097433858679_1_alg».proof.Proof.Gen.Kernel.Skeleton
import proofs.«139449_j69097433858679_1_alg».proof.Proof.Gen.Kernel.Launch
import proofs.«139449_j69097433858679_1_alg».proof.Proof.Gen.Kernel.Points
import proofs.«139449_j69097433858679_1_alg».proof.Proof.Gen.Kernel.Frame
import proofs.«139449_j69097433858679_1_alg».proof.Proof.Gen.KernelIdeal
import proofs.«139449_j69097433858679_1_alg».proof.Proof.Gen.KernelIdeal.Skeleton
import proofs.«139449_j69097433858679_1_alg».proof.Proof.Gen.KernelIdeal.Launch
import proofs.«139449_j69097433858679_1_alg».proof.Proof.Gen.KernelIdeal.Points
import proofs.«139449_j69097433858679_1_alg».proof.Proof.Gen.KernelIdeal.Frame
import proofs.«139449_j69097433858679_1_alg».proof.Proof.Gen.ReferenceIdeal
import proofs.«139449_j69097433858679_1_alg».proof.Proof.Gen.ReferenceIdeal.Run
import proofs.«139449_j69097433858679_1_alg».proof.Proof.Gen.Pre_finite_inputs
import proofs.«139449_j69097433858679_1_alg».proof.Proof.ResultRun
import proofs.«139449_j69097433858679_1_alg».proof.Proof.Fold
import proofs.«139449_j69097433858679_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both programmes end with `Spec.result` of the arguments in their result buffer: the tiled one by the regions'
    values composed along the run, the reference by its composed term. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.FoldIdeal.result_eq m ρ c), (h c).2⟩)
      (Cert.KernelIdeal.ResultRun.run_result (F := Ideal) m ρ)
  · refine (θ_run Cert.ReferenceIdeal.defs _ _).mono (fun _ h c => ⟨(h c).1.trans ?_, (h c).2⟩)
      (Cert.RefSide.run (F := Ideal) m' ρ')
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
